-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S64x64 .f32) (main_arg2 : IVec S1600000 32) (main_arg3 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S100000x64 : Shape := ⟨2, ![100000, 64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩

abbrev nBuf : Space → Nat
  | .hbm => 45
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩

abbrev nBuf : Space → Nat
  | .hbm => 48
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RowScale.lean ====
/-
  The first kernel region, read as a value: every row of its first operand multiplied by that row's entry of the
  one-column second operand. Each grid point t loads rows 5000·t … 5000·t + 4999 of both operands, multiplies the
  [5000, 64] block by the column broadcast along the lanes, and writes the product back to the same rows of the
  result; the twenty blocks tile the [100000, 64] result, so after the region the result array is the row-scaled
  operand at every index, whatever the region found in the arrays when it was entered.
-/
import proofs.«124670_j47974784697087_1_alg».proof.Proof.Gen.KernelIdeal.Frame
import Idealize.ShloMosaic.Lib.Pipeline.Value
import Idealize.ShloMosaic.PureOps.Ideal.Laws

set_option maxRecDepth 16384

noncomputable section

namespace Cert.KernelIdeal.RowScale

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The entry of a one-column array that belongs to the row of i. -/
abbrev rowOf (i : S100000x64.Idx) : S100000x1.Idx := fun a => match a with
  | ⟨0, _⟩ => ⟨(i 0).val, (i 0).isLt⟩
  | ⟨1, _⟩ => ⟨0, Nat.one_pos⟩

/-- The same inside one block. -/
abbrev blockRowOf (j : S5000x64.Idx) : S5000x1.Idx := fun a => match a with
  | ⟨0, _⟩ => ⟨(j 0).val, (j 0).isLt⟩
  | ⟨1, _⟩ => ⟨0, Nat.one_pos⟩

/-- Every entry of x times its row's entry of the column n. -/
def rowScaled (x : S100000x64.Idx → EReal) (n : S100000x1.Idx → EReal) : S100000x64.Idx → EReal :=
  fun i => x i * n (rowOf i)

/-- The body's product at an entry of the block: the block's entry times the column's entry of that row (the
    column is cast to its own shape, which changes nothing, and broadcast along the lanes). -/
theorem body_apply (x0 : Vec Ideal S5000x64 .f32) (x1 : Vec Ideal S5000x1 .f32) (j : S5000x64.Idx) :
    k0_pay1 x0 x1 j = x0 j * x1 (blockRowOf j) := by
  unfold k0_pay1
  show x0 j * broadcastTo S5000x64 (shapeCast S5000x1 x1 shapeCasts_S5000x1_S5000x1) broadcasts_S5000x1_S5000x64 j = _
  rw [shapeCast_self, broadcastTo_apply x1 broadcasts_S5000x1_S5000x64 j (blockRowOf j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

/-- The three index maps over the grid: both operands' blocks move with the result's block along the rows, no
    block index moves along the lanes, and the result's row-block index stays below twenty. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 19
    ∧ win0_2.index t (1 : Fin 2) = 0 :=
  (by decide +kernel : ∀ t : Fin grid0.N, _)

/-- Every one of the twenty row blocks is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point t writes back is block t of the row-scaled first operand. -/
theorem flushed_eq (c : Dev nD) (t : Fin cfg0.N) :
    (dat0 V c).flushed 2 t = ((cfg0.win 2).blk t).view.read (Elt Ideal) (rowScaled (V c main_arg0) (V c main_v10)) := by
  show (cfg0.win 2).cut (grid0.coords t) ((dat0 V c).after 2 t) = _
  rw [after0_2]
  unfold out0_2
  rw [View.canon_unit_zero zero_off]
  simp only [View.ld_unit_zero (S := S5000x64) zero_off, View.ld_unit_zero (S := S5000x1) zero_off]
  obtain ⟨e0, e1, e2, e3, e4, e5⟩ := idx_facts t
  funext j
  show k0_pay1 (iblk0 V c 0 t) (iblk0 V c 1 t) j = rowScaled (V c main_arg0) (V c main_v10) (((cfg0.win 2).blk t).view.emb j)
  refine (body_apply (iblk0 V c 0 t) (iblk0 V c 1 t) j).trans ?_
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (blockRowOf j) = rowOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  unfold rowScaled
  refine congrArg₂ (fun a b : EReal => a * b) ?_ ?_
  · show V c main_arg0 (((cfg0.win 0).blk t).view.emb j) = V c main_arg0 (((cfg0.win 2).blk t).view.emb j)
    exact congrArg _ h0
  · show V c main_v10 (((cfg0.win 1).blk t).view.emb (blockRowOf j)) = V c main_v10 (rowOf (((cfg0.win 2).blk t).view.emb j))
    exact congrArg _ h1

/-- An index of the result is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- The blocks cover the result: row r lies in the block of the point whose row-block index is r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its result array is the row-scaled first operand, at every index. -/
theorem final (c : Dev nD) : (dat0 V c).arrAt 2 cfg0.N = rowScaled (V c main_arg0) (V c main_v10) :=
  (dat0 V c).arrAt_eq_of_cover 2 _ (fun t _ => flushed_eq V c t) covered

end Cert.KernelIdeal.RowScale

end
-- ==== Proof.Project.lean ====
/-
  The second kernel region, read as a value at the exact instance: row r of its first operand, scaled by row r's
  entry of the one-column second operand, multiplied as a [1, 64] row into the [64, 64] third operand. Each grid
  point t loads rows 5000·t … 5000·t + 4999 of the first two operands and the whole third operand, scales the block
  by the column, changes both factors' format (the identity on exact values), multiplies them into a zero
  accumulator (so the entry at (r, c) is the sum over k of the scaled block's (r, k) times the third operand's (k, c)),
  and writes the [5000, 64] product back to the same rows of the result. The twenty blocks tile the result.
-/
import proofs.«124670_j47974784697087_1_alg».proof.Proof.Gen.KernelIdeal.Frame
import proofs.«124670_j47974784697087_1_alg».proof.Proof.RowScale
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen Idealize.ShloMosaic Idealize.ShloMosaic.TcCoe Idealize.SL.Sem
open Idealize.ShloMosaic.Pipeline (Dat)
open Cert.KernelIdeal.RowScale (rowOf blockRowOf zero_off)

variable (V : (c : Dev nD) → (b : Ref sig .tc) → Buf (Elt Ideal) ((c : Thread nD τ).loc b))

/-! ## The contraction's operand indices, axis by axis -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (row of j, k) of a block, and entry (k, column of j) of the square factor. -/
abbrev blockLeft (j : S5000x64.Idx) (k : Fin 64) : S5000x64.Idx := fun a => match a with
  | ⟨0, _⟩ => ⟨(j 0).val, (j 0).isLt⟩
  | ⟨1, _⟩ => ⟨k.val, k.isLt⟩
abbrev blockRight (j : S5000x64.Idx) (k : Fin 64) : S64x64.Idx := fun a => match a with
  | ⟨0, _⟩ => ⟨k.val, k.isLt⟩
  | ⟨1, _⟩ => ⟨(j 1).val, (j 1).isLt⟩

/-- The same two entries named from an index of the whole [100000, 64] array. -/
abbrev arrLeft (i : S100000x64.Idx) (k : Fin 64) : S100000x64.Idx := fun a => match a with
  | ⟨0, _⟩ => ⟨(i 0).val, (i 0).isLt⟩
  | ⟨1, _⟩ => ⟨k.val, k.isLt⟩
abbrev arrRight (i : S100000x64.Idx) (k : Fin 64) : S64x64.Idx := fun a => match a with
  | ⟨0, _⟩ => ⟨k.val, k.isLt⟩
  | ⟨1, _⟩ => ⟨(i 1).val, (i 1).isLt⟩

/-- Row r of A, scaled by the column's entry of row r, times the square factor: at (r, c) the sum over k of
    A (r, k) · n r · W (k, c). -/
def projected (A : S100000x64.Idx → EReal) (n : S100000x1.Idx → EReal) (W : S64x64.Idx → EReal) : S100000x64.Idx → EReal :=
  fun i => ∑ k : Fin 64, (A (arrLeft i k) * n (rowOf (arrLeft i k))) * W (arrRight i k)

/-- The body's product at an entry of the block. -/
theorem body_apply (x0 : Vec Ideal S5000x64 .f32) (x1 : Vec Ideal S5000x1 .f32) (x2 : Vec Ideal S64x64 .f32) (j : S5000x64.Idx) :
    k1_pay1 x0 x1 x2 j = ∑ k : Fin 64, (x0 (blockLeft j k) * x1 (blockRowOf (blockLeft j k))) * x2 (blockRight j k) := by
  unfold k1_pay1
  show FloatOps.matmul dot_S5000x64_S64x64_S5000x64_1_0_0_1_n_n none
      (truncf .bf16 (mulf (shapeCast S5000x64 x0 shapeCasts_S5000x64_S5000x64) (broadcastTo S5000x64 (shapeCast S5000x1 x1 shapeCasts_S5000x1_S5000x1) broadcasts_S5000x1_S5000x64)) bitsLt_bf16_f32)
      (truncf .bf16 x2 bitsLt_bf16_f32) (constant (F := Ideal) S5000x64 .f32 0x00000000#32) j = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = blockLeft j k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx j ((ValueIdx.contrEquiv1 dot_S5000x64_S64x64_S5000x64_1_0_0_1_n_n 64 rfl rfl).symm k) = blockRight j k := funext fun a => Fin.ext (by
    match a with
    | ⟨0, _⟩ => exact (rhs_axis0 _ _).trans hk
    | ⟨1, _⟩ => exact rhs_axis1 _ _)
  rw [el, er]
  show (shapeCast S5000x64 x0 shapeCasts_S5000x64_S5000x64 (blockLeft j k)
      * broadcastTo S5000x64 (shapeCast S5000x1 x1 shapeCasts_S5000x1_S5000x1) broadcasts_S5000x1_S5000x64 (blockLeft j k)) * x2 (blockRight j k) = _
  rw [shapeCast_self, shapeCast_self, broadcastTo_apply x1 broadcasts_S5000x1_S5000x64 (blockLeft j k) (blockRowOf (blockLeft j k)) (fun a => match a with
    | ⟨0, _⟩ => by show (j 0).val = if (5000 : Nat) = 1 then 0 else (j 0).val; rw [if_neg (by decide)]
    | ⟨1, _⟩ => by show 0 = if (1 : Nat) = 1 then 0 else k.val; rw [if_pos rfl])]

/-- The four index maps over the grid: the first two operands' blocks move with the result's block along the
    rows, the square factor is always its one whole block, no block index moves along the lanes. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) ≤ 19
    ∧ win1_3.index t (1 : Fin 2) = 0 :=
  (by decide +kernel : ∀ t : Fin grid1.N, _)

/-- Every one of the twenty row blocks is some point's. -/
theorem idx_onto : ∀ q : Fin 20, ∃ t : Fin cfg1.N, win1_3.index t = ![q.val, 0] :=
  (by decide +kernel : ∀ q : Fin 20, ∃ t : Fin grid1.N, win1_3.index t = ![q.val, 0])

/-- What point t writes back is block t of the projected array. -/
theorem flushed_eq (c : Dev nD) (t : Fin cfg1.N) :
    (dat1 V c).flushed 3 t = ((cfg1.win 3).blk t).view.read (Elt Ideal) (projected (V c main_v25) (V c main_v14) (V c main_arg1)) := by
  show (cfg1.win 3).cut (grid1.coords t) ((dat1 V c).after 3 t) = _
  rw [after1_3]
  unfold out1_3
  rw [View.canon_unit_zero zero_off]
  simp only [View.ld_unit_zero (S := S5000x64) zero_off, View.ld_unit_zero (S := S5000x1) zero_off, View.ld_unit_zero (S := S64x64) zero_off]
  obtain ⟨e0, e1, e2, e3, e4, e5, e6, e7⟩ := idx_facts t
  funext j
  show k1_pay1 (iblk1 V c 0 t) (iblk1 V c 1 t) (iblk1 V c 2 t) j
    = projected (V c main_v25) (V c main_v14) (V c main_arg1) (((cfg1.win 3).blk t).view.emb j)
  refine (body_apply (iblk1 V c 0 t) (iblk1 V c 1 t) (iblk1 V c 2 t) j).trans ?_
  unfold projected
  refine Finset.sum_congr rfl fun k _ => ?_
  have h0 : ((cfg1.win 0).blk t).view.emb (blockLeft j k) = arrLeft (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  have h1 : ((cfg1.win 1).blk t).view.emb (blockRowOf (blockLeft j k)) = rowOf (arrLeft (((cfg1.win 3).blk t).view.emb j) k) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (blockRight j k) = arrRight (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  refine congrArg₂ (fun a b : EReal => a * b) (congrArg₂ (fun a b : EReal => a * b) ?_ ?_) ?_
  · show V c main_v25 (((cfg1.win 0).blk t).view.emb (blockLeft j k)) = V c main_v25 (arrLeft (((cfg1.win 3).blk t).view.emb j) k)
    exact congrArg _ h0
  · show V c main_v14 (((cfg1.win 1).blk t).view.emb (blockRowOf (blockLeft j k))) = V c main_v14 (rowOf (arrLeft (((cfg1.win 3).blk t).view.emb j) k))
    exact congrArg _ h1
  · show V c main_arg1 (((cfg1.win 2).blk t).view.emb (blockRight j k)) = V c main_arg1 (arrRight (((cfg1.win 3).blk t).view.emb j) k)
    exact congrArg _ h2

/-- An index of the result is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v26).slice (win1_3.rect t)).set ↔ _
  rw [View.set_slice_whole, Rect.mem_set_unit]
  exact Iff.rfl

/-- The blocks cover the result: row r lies in the block of the point whose row-block index is r / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region its result array is the projected array, at every index. -/
theorem final (c : Dev nD) : (dat1 V c).arrAt 3 cfg1.N = projected (V c main_v25) (V c main_v14) (V c main_arg1) :=
  (dat1 V c).arrAt_eq_of_cover 3 _ (fun t _ => flushed_eq V c t) covered

end Cert.KernelIdeal.Project

end
-- ==== Proof.HostSide.lean ====
/-
  What the host operations between the launch and the two kernel regions leave in the arrays the regions read,
  as functions of the four argument arrays. Before the first region: the features are the first argument
  untouched, and the column it is scaled by is the out-degree normalisation, the count of each node among the
  sources clamped below at one, raised to the power minus one half and laid out as one column. Between the regions
  the scaled features are gathered along the (wrapped) sources and summed into their destinations. Before the
  second region the column is the in-degree normalisation, computed like the first from the destinations, and the
  square factor is the second argument untouched. Each is read off the operations' fold at the buffer, in the
  reference program's own spelling of the same operations, for any float values: nothing here computes with them.
-/
import proofs.«124670_j47974784697087_1_alg».proof.Proof.Gen.KernelIdeal.Frame
import proofs.«124670_j47974784697087_1_alg».proof.Proof.Gen.ReferenceIdeal.Read
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The gather of the scaled features along the sources (a negative source wrapped by the node count) summed
    into the destinations, in the reference program's spelling. -/
def aggregated (feat : (⟨Cert.ReferenceIdeal.S100000x64, .f32⟩ : BufTy).Contents (Elt F))
    (x2 x3 : (⟨Cert.ReferenceIdeal.S1600000, .i32⟩ : BufTy).Contents (Elt F)) :
    (⟨Cert.ReferenceIdeal.S100000x64, .f32⟩ : BufTy).Contents (Elt F) :=
  Host.scatterAdd Cert.ReferenceIdeal.scatter_S100000x64_S1600000x1_S1600000x64_1_0_0_1
    (Cert.ReferenceIdeal.Read.val_main_v23 (F := F)) (Cert.ReferenceIdeal.Read.val_main_v24 (F := F) x3)
    (Host.gather Cert.ReferenceIdeal.gather_S100000x64_S1600000x1_S1600000x64_1_0_n_n_0_1_164 feat
      (Cert.ReferenceIdeal.Read.val_main_v21 (F := F) x2))

/-- The reference's gathered and summed features are that gather and sum of its scaled features. -/
theorem aggregated_eq (x0 : (⟨Cert.ReferenceIdeal.S100000x64, .f32⟩ : BufTy).Contents (Elt F))
    (x2 x3 : (⟨Cert.ReferenceIdeal.S1600000, .i32⟩ : BufTy).Contents (Elt F)) :
    Cert.ReferenceIdeal.Read.val_main_v25 (F := F) x0 x2 x3
      = aggregated (Cert.ReferenceIdeal.Read.val_main_v15 (F := F) x0 x2) x2 x3 := rfl

/-! ## Up to the first region -/

theorem before_first_arg0 (c : Dev nD) : W5 m ρ c (Proc.devRef .tc main_arg0) = m ((c : Thread nD τ).loc main_arg0) := by
  show after hostOps0_4 (after hostOps0_3 (after hostOps0_2 (after hostOps0_1 (after hostOps0 (W0 m ρ c))))) (Proc.devRef .tc main_arg0) = _
  simp only [hostOps0, hostOps0_1, hostOps0_2, hostOps0_3, hostOps0_4]
  after_results_simp <;> rfl
theorem before_first_arg1 (c : Dev nD) : W5 m ρ c (Proc.devRef .tc main_arg1) = m ((c : Thread nD τ).loc main_arg1) := by
  show after hostOps0_4 (after hostOps0_3 (after hostOps0_2 (after hostOps0_1 (after hostOps0 (W0 m ρ c))))) (Proc.devRef .tc main_arg1) = _
  simp only [hostOps0, hostOps0_1, hostOps0_2, hostOps0_3, hostOps0_4]
  after_results_simp <;> rfl
theorem before_first_arg2 (c : Dev nD) : W5 m ρ c (Proc.devRef .tc main_arg2) = m ((c : Thread nD τ).loc main_arg2) := by
  show after hostOps0_4 (after hostOps0_3 (after hostOps0_2 (after hostOps0_1 (after hostOps0 (W0 m ρ c))))) (Proc.devRef .tc main_arg2) = _
  simp only [hostOps0, hostOps0_1, hostOps0_2, hostOps0_3, hostOps0_4]
  after_results_simp <;> rfl
theorem before_first_arg3 (c : Dev nD) : W5 m ρ c (Proc.devRef .tc main_arg3) = m ((c : Thread nD τ).loc main_arg3) := by
  show after hostOps0_4 (after hostOps0_3 (after hostOps0_2 (after hostOps0_1 (after hostOps0 (W0 m ρ c))))) (Proc.devRef .tc main_arg3) = _
  simp only [hostOps0, hostOps0_1, hostOps0_2, hostOps0_3, hostOps0_4]
  after_results_simp <;> rfl

/-- The column the first region scales by: the out-degree normalisation. -/
theorem before_first_col (c : Dev nD) :
    W5 m ρ c (Proc.devRef .tc main_v10) = Cert.ReferenceIdeal.Read.val_main_v13 (F := F) (m ((c : Thread nD τ).loc main_arg2)) := by
  show after hostOps0_4 (after hostOps0_3 (after hostOps0_2 (after hostOps0_1 (after hostOps0 (W0 m ρ c))))) (Proc.devRef .tc main_v10) = _
  simp only [hostOps0, hostOps0_1, hostOps0_2, hostOps0_3, hostOps0_4]
  after_results_simp <;> rfl

/-- The column the second region scales by is already there before the first: the in-degree normalisation. -/
theorem before_first_col2 (c : Dev nD) :
    W5 m ρ c (Proc.devRef .tc main_v14) = Cert.ReferenceIdeal.Read.val_main_v26 (F := F) (m ((c : Thread nD τ).loc main_arg3)) := by
  show after hostOps0_4 (after hostOps0_3 (after hostOps0_2 (after hostOps0_1 (after hostOps0 (W0 m ρ c))))) (Proc.devRef .tc main_v14) = _
  simp only [hostOps0, hostOps0_1, hostOps0_2, hostOps0_3, hostOps0_4]
  after_results_simp <;> rfl

/-! ## Between the regions -/

theorem before_second_col (c : Dev nD) :
    W7 m ρ c (Proc.devRef .tc main_v14) = Cert.ReferenceIdeal.Read.val_main_v26 (F := F) (m ((c : Thread nD τ).loc main_arg3)) := by
  show after hostOps1 (W6 m ρ c) (Proc.devRef .tc main_v14) = _
  simp only [hostOps1]
  after_results_simp
  exact (W6_of_ne m ρ c main_v14 (by decide)).trans (before_first_col2 m ρ c)

theorem before_second_arg1 (c : Dev nD) : W7 m ρ c (Proc.devRef .tc main_arg1) = m ((c : Thread nD τ).loc main_arg1) := by
  show after hostOps1 (W6 m ρ c) (Proc.devRef .tc main_arg1) = _
  simp only [hostOps1]
  after_results_simp
  exact (W6_of_ne m ρ c main_arg1 (by decide)).trans (before_first_arg1 m ρ c)

/-- The first operand of the second region: the first region's result gathered along the sources and summed
    into the destinations. -/
theorem before_second_agg (c : Dev nD) :
    W7 m ρ c (Proc.devRef .tc main_v25)
      = aggregated ((dat0 (V5 m ρ) c).arrAt 2 cfg0.N) (m ((c : Thread nD τ).loc main_arg2)) (m ((c : Thread nD τ).loc main_arg3)) := by
  show after hostOps1 (W6 m ρ c) (Proc.devRef .tc main_v25) = _
  simp only [hostOps1]
  after_results_simp
  rw [show W6 m ρ c (Proc.devRef .tc main_v15) = (dat0 (V5 m ρ) c).arrAt 2 cfg0.N from W6_arr m ρ c 2,
    show W6 m ρ c (Proc.devRef .tc main_arg2) = m ((c : Thread nD τ).loc main_arg2) from (W6_of_ne m ρ c main_arg2 (by decide)).trans (before_first_arg2 m ρ c),
    show W6 m ρ c (Proc.devRef .tc main_arg3) = m ((c : Thread nD τ).loc main_arg3) from (W6_of_ne m ρ c main_arg3 (by decide)).trans (before_first_arg3 m ρ c)]
  rfl

end Cert.KernelIdeal.HostSide

end
-- ==== Proof.WholeValue.lean ====
/-
  The kernel program's result as one function of its four arguments, and the same function read off the reference.
  With d_out and d_in the out- and in-degree counts clamped below at one, both programs compute
      out (r, c) = sum over k of ( agg (r, k) · d_in(r)^(-1/2) ) · W (k, c),
      agg = the rows x (s, ·) · d_out(s)^(-1/2), gathered along the sources and summed into the destinations.
  The kernel program scales the rows in its first region, gathers and sums on the host, and scales and multiplies in
  its second region; the reference does every step on the host. The gather and the sum are the same operations
  applied to the same array on both sides, so no law of the extended reals beyond the definitions is needed: the two
  sums over k are equal term by term.
-/
import proofs.«124670_j47974784697087_1_alg».proof.Proof.KernelRun
import proofs.«124670_j47974784697087_1_alg».proof.Proof.RowScale
import proofs.«124670_j47974784697087_1_alg».proof.Proof.Project
import proofs.«124670_j47974784697087_1_alg».proof.Proof.HostSide

set_option maxRecDepth 16384

noncomputable section

open Idealize.ShloMosaic Idealize.ShloMosaic.TcCoe Idealize.SL.Sem

namespace Cert.KernelIdeal.WholeValue

open Cert.KernelIdeal Cert.KernelIdeal.Gen
open Cert.KernelIdeal.RowScale (rowScaled)
open Cert.KernelIdeal.Project (projected)
open Cert.KernelIdeal.HostSide (aggregated)

/-- The result array as a function of the features x0, the square factor x1, the sources x2 and the destinations x3. -/
def result (x0 : S100000x64.Idx → EReal) (x1 : S64x64.Idx → EReal) (x2 x3 : S1600000.Idx → BitVec 32) : S100000x64.Idx → EReal :=
  projected (aggregated (F := Ideal) (rowScaled x0 (Cert.ReferenceIdeal.Read.val_main_v13 (F := Ideal) x2)) x2 x3)
    (Cert.ReferenceIdeal.Read.val_main_v26 (F := Ideal) x3) x1

variable (m : (ℓ : Loc nD τ sig) → Buf (Elt Ideal) ℓ) (ρ : Dev nD → PrngReg)

/-- What the first region leaves in its result array. -/
theorem first_region (c : Dev nD) :
    (dat0 (V5 m ρ) c).arrAt 2 cfg0.N
      = rowScaled (m ((c : Thread nD τ).loc main_arg0)) (Cert.ReferenceIdeal.Read.val_main_v13 (F := Ideal) (m ((c : Thread nD τ).loc main_arg2))) := by
  have e0 : V5 m ρ c main_arg0 = m ((c : Thread nD τ).loc main_arg0) := HostSide.before_first_arg0 m ρ c
  have e1 : V5 m ρ c main_v10 = Cert.ReferenceIdeal.Read.val_main_v13 (F := Ideal) (m ((c : Thread nD τ).loc main_arg2)) := HostSide.before_first_col m ρ c
  rw [RowScale.final (V5 m ρ) c, e0, e1]

/-- What the last boundary holds at the result buffer: the second region's result array. -/
theorem last_eq (c : Dev nD) :
    W8 m ρ c (Proc.devRef .tc main_v26)
      = result (m ((c : Thread nD τ).loc main_arg0)) (m ((c : Thread nD τ).loc main_arg1)) (m ((c : Thread nD τ).loc main_arg2)) (m ((c : Thread nD τ).loc main_arg3)) := by
  have e0 : V7 m ρ c main_v25 = aggregated (F := Ideal) ((dat0 (V5 m ρ) c).arrAt 2 cfg0.N) (m ((c : Thread nD τ).loc main_arg2)) (m ((c : Thread nD τ).loc main_arg3)) := HostSide.before_second_agg m ρ c
  have e1 : V7 m ρ c main_v14 = Cert.ReferenceIdeal.Read.val_main_v26 (F := Ideal) (m ((c : Thread nD τ).loc main_arg3)) := HostSide.before_second_col m ρ c
  have e2 : V7 m ρ c main_arg1 = m ((c : Thread nD τ).loc main_arg1) := HostSide.before_second_arg1 m ρ c
  refine (W8_arr m ρ c 3).trans ?_
  rw [Project.final (V7 m ρ) c, e0, e1, e2, first_region m ρ c]
  unfold result
  rfl

/-- Every weakly fair execution of the kernel program terminates, nothing faulting, with the result buffer at
    the function of the arguments above and the arguments unchanged. -/
theorem run : θ_run defs (onTc (τ := τ) (main (F := Ideal))) ⟨m, fun _ => 0, ρ⟩ (fun r => ∀ c : Dev nD,
      r.2.mem ((c.tc : Thread nD τ).loc main_v26)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (last_eq m ρ c), (h c).2⟩) (Cert.KernelIdeal.RunValue.run_last m ρ)

end Cert.KernelIdeal.WholeValue

namespace Cert.ReferenceIdeal.RefValue

open Cert.ReferenceIdeal Cert.ReferenceIdeal.Read
open Cert.KernelIdeal.RowScale (rowScaled rowOf)
open Cert.KernelIdeal.Project (projected arrLeft arrRight)
open Cert.KernelIdeal.HostSide (aggregated)

/-- The reference's two broadcasts of a column read the entry of the index's row. -/
theorem row_idx (i : S100000x64.Idx) : idx_main_v14 i = rowOf i :=
  funext fun a => by
    match a with
    | ⟨0, _⟩ => rfl
    | ⟨1, _⟩ => rfl
theorem row_idx' (i : S100000x64.Idx) : idx_main_v27 i = rowOf i :=
  funext fun a => by
    match a with
    | ⟨0, _⟩ => rfl
    | ⟨1, _⟩ => rfl
/-- The reference's product reads entry (row, k) of its left factor and entry (k, column) of its right. -/
theorem left_idx (i : S100000x64.Idx) (k : Fin 64) : lidx_main_v29 i k = arrLeft i k :=
  funext fun a => by
    match a with
    | ⟨0, _⟩ => rfl
    | ⟨1, _⟩ => rfl
theorem right_idx (i : S100000x64.Idx) (k : Fin 64) : ridx_main_v29 i k = arrRight i k :=
  funext fun a => by
    match a with
    | ⟨0, _⟩ => rfl
    | ⟨1, _⟩ => rfl

/-- The reference's scaled features are the rows times their row's entry of the out-degree column. -/
theorem scaled_eq (x0 : (⟨S100000x64, .f32⟩ : BufTy).Contents (Elt Ideal)) (x2 : (⟨S1600000, .i32⟩ : BufTy).Contents (Elt Ideal)) :
    val_main_v15 (F := Ideal) x0 x2 = rowScaled x0 (val_main_v13 (F := Ideal) x2) := by
  funext i
  rw [val_main_v15_apply, val_main_v14_apply, row_idx, Ideal.mulf_def]
  unfold rowScaled
  rfl

/-- The reference's result is the kernel program's function of the arguments: entry by entry the same sum over k. -/
theorem result_eq (x0 : (⟨S100000x64, .f32⟩ : BufTy).Contents (Elt Ideal)) (x1 : (⟨S64x64, .f32⟩ : BufTy).Contents (Elt Ideal))
    (x2 x3 : (⟨S1600000, .i32⟩ : BufTy).Contents (Elt Ideal)) :
    val_main_v29 (F := Ideal) x0 x1 x2 x3 = Cert.KernelIdeal.WholeValue.result x0 x1 x2 x3 := by
  funext i
  rw [val_main_v29_apply]
  unfold Cert.KernelIdeal.WholeValue.result projected
  refine Finset.sum_congr rfl fun k _ => ?_
  rw [val_main_v28_apply, val_main_v27_apply, Cert.KernelIdeal.HostSide.aggregated_eq, scaled_eq, left_idx, right_idx, row_idx', Ideal.mulf_def]

end Cert.ReferenceIdeal.RefValue

end
-- ==== Proof.lean ====
/-
  A graph convolution over 100000 nodes with 64 features and 1.6 million edges: the features are scaled by the
  out-degree normalisation of their node, carried along the edges and summed at the destinations, scaled by the
  in-degree normalisation and multiplied by a 64 x 64 weight. The kernel program does the two scalings (and the
  product) in two pipelined regions of twenty row blocks each and leaves the gather and the sum to the host; the
  reference does everything on the host.

  The three frames: the two kernel programs run, fault-free, and leave their arguments as launched (their generated
  frames, two regions among host stretches); the reference's frame is its run with the result dropped. The kernel
  program is its own idealization, no rewrite applied. At the exact instance both programs end at one function of
  the arguments (Proof/WholeValue.lean): the kernel's two regions read as whole-array functions (Proof/RowScale.lean,
  Proof/Project.lean) around the host's gather and sum (Proof/HostSide.lean), the reference's run read one operation
  at a time. The precondition is not used: the two results are equal as extended reals for every input.
-/
import proofs.«124670_j47974784697087_1_alg».proof.Defs
import proofs.«124670_j47974784697087_1_alg».proof.Proof.Gen.Kernel
import proofs.«124670_j47974784697087_1_alg».proof.Proof.Gen.Kernel.Skeleton
import proofs.«124670_j47974784697087_1_alg».proof.Proof.Gen.Kernel.Launch
import proofs.«124670_j47974784697087_1_alg».proof.Proof.Gen.Kernel.Points
import proofs.«124670_j47974784697087_1_alg».proof.Proof.Gen.Kernel.Frame
import proofs.«124670_j47974784697087_1_alg».proof.Proof.Gen.KernelIdeal
import proofs.«124670_j47974784697087_1_alg».proof.Proof.Gen.KernelIdeal.Skeleton
import proofs.«124670_j47974784697087_1_alg».proof.Proof.Gen.KernelIdeal.Launch
import proofs.«124670_j47974784697087_1_alg».proof.Proof.Gen.KernelIdeal.Points
import proofs.«124670_j47974784697087_1_alg».proof.Proof.Gen.KernelIdeal.Frame
import proofs.«124670_j47974784697087_1_alg».proof.Proof.Gen.ReferenceIdeal
import proofs.«124670_j47974784697087_1_alg».proof.Proof.Gen.Pre_finite_inputs
import proofs.«124670_j47974784697087_1_alg».proof.Proof.Gen.ReferenceIdeal.Run
import proofs.«124670_j47974784697087_1_alg».proof.Proof.Gen.ReferenceIdeal.Read
import proofs.«124670_j47974784697087_1_alg».proof.Proof.WholeValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the same function of arguments that agree. -/
theorem algebraic : Cert.algebraic_KernelIdeal_ReferenceIdeal := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
